-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x5x64x2048 : Shape := ⟨4, ![1, 5, 64, 2048]⟩
abbrev S1x512x64x2048 : Shape := ⟨4, ![1, 512, 64, 2048]⟩
abbrev S512 : Shape := ⟨1, ![512]⟩
abbrev S_ : Shape := ⟨0, ![]⟩

class Facts : Prop where
  bcast_S_S1x5x64x2048 : S_.BroadcastsInDim S1x5x64x2048 (![] : Fin 0 → Fin S1x5x64x2048.rank)
  reducesTo_S1x5x64x2048_S_d0_1_2_3 : S1x5x64x2048.ReducesTo [0, 1, 2, 3] S_
  h_S_ : 0 < S_.numel
  bcast_S_S1x512x64x2048 : S_.BroadcastsInDim S1x512x64x2048 (![] : Fin 0 → Fin S1x512x64x2048.rank)
  reducesTo_S1x512x64x2048_S_d0_1_2_3 : S1x512x64x2048.ReducesTo [0, 1, 2, 3] S_

variable [Facts]

def fn {F : FTy → Type} [FloatOps F] (main_arg0 : FVec F S1x5x64x2048 .f32) (main_arg1 : FVec F S1x512x64x2048 .f32) (main_arg2 : IVec S512 32) : IVec S_ 1 :=
  let main_v0 : FVec F S1x5x64x2048 .f32 := Host.absf main_arg0
  let main_cst : FVec F S_ .f32 := constant S_ .f32 0x7F800000#32
  let main_v1 : FVec F S1x5x64x2048 .f32 := broadcastInDim S1x5x64x2048 ![] bcast_S_S1x5x64x2048 main_cst
  let main_v2 : IVec S1x5x64x2048 1 := cmpf .olt main_v0 main_v1
  let main_c : IVec S_ 1 := constantI S_ 1 1#1
  let main_v3 : IVec S_ 1 := (fun x v => Host.reduce IntOp.andi x v reducesTo_S1x5x64x2048_S_d0_1_2_3 h_S_) main_v2 main_c
  let main_v4 : FVec F S1x512x64x2048 .f32 := Host.absf main_arg1
  let main_cst_0 : FVec F S_ .f32 := constant S_ .f32 0x7F800000#32
  let main_v5 : FVec F S1x512x64x2048 .f32 := broadcastInDim S1x512x64x2048 ![] bcast_S_S1x512x64x2048 main_cst_0
  let main_v6 : IVec S1x512x64x2048 1 := cmpf .olt main_v4 main_v5
  let main_c_1 : IVec S_ 1 := constantI S_ 1 1#1
  let main_v7 : IVec S_ 1 := (fun x v => Host.reduce IntOp.andi x v reducesTo_S1x512x64x2048_S_d0_1_2_3 h_S_) main_v6 main_c_1
  let main_v8 : IVec S_ 1 := andi main_v3 main_v7
  main_v8
-- ==== Kernel.lean ====
abbrev S1x5x64x2048 : Shape := ⟨4, ![1, 5, 64, 2048]⟩
abbrev S1x512x64x2048 : Shape := ⟨4, ![1, 512, 64, 2048]⟩
abbrev S512 : Shape := ⟨1, ![512]⟩
abbrev S1x5x2048 : Shape := ⟨3, ![1, 5, 2048]⟩
abbrev S5x64x2048 : Shape := ⟨3, ![5, 64, 2048]⟩
abbrev S5x2048 : Shape := ⟨2, ![5, 2048]⟩
abbrev S1x512x2048 : Shape := ⟨3, ![1, 512, 2048]⟩
abbrev S1x32x64x2048 : Shape := ⟨4, ![1, 32, 64, 2048]⟩
abbrev S1x32x2048 : Shape := ⟨3, ![1, 32, 2048]⟩
abbrev S32x64x2048 : Shape := ⟨3, ![32, 64, 2048]⟩
abbrev S32x2048 : Shape := ⟨2, ![32, 2048]⟩
abbrev S512x2048 : Shape := ⟨2, ![512, 2048]⟩
abbrev S512x5 : Shape := ⟨2, ![512, 5]⟩
abbrev S_ : Shape := ⟨0, ![]⟩
abbrev S5 : Shape := ⟨1, ![5]⟩
abbrev S512x1 : Shape := ⟨2, ![512, 1]⟩
abbrev S1x5 : Shape := ⟨2, ![1, 5]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 71
  | .vmem => 6
  | .smem => 0
  | _ => 0

abbrev bufTy : (tb : Table) → Fin (tcTables nBuf tb) → BufTy
  | .hbm, ⟨0, _⟩ => ⟨S1x5x64x2048, .f32⟩
  | .hbm, ⟨1, _⟩ => ⟨S1x512x64x2048, .f32⟩
  | .hbm, ⟨2, _⟩ => ⟨S512, .i32⟩
  | .hbm, ⟨3, _⟩ => ⟨S1x5x2048, .f32⟩
  | .hbm, ⟨4, _⟩ => ⟨S5x2048, .f32⟩
  | .hbm, ⟨5, _⟩ => ⟨S1x512x2048, .f32⟩
  | .hbm, ⟨6, _⟩ => ⟨S512x2048, .f32⟩
  | .hbm, ⟨7, _⟩ => ⟨S512x5, .f32⟩
  | .hbm, ⟨8, _⟩ => ⟨S512x2048, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S5x2048, .f32⟩
  | .hbm, ⟨13, _⟩ => ⟨S_, .f32⟩
  | .hbm, ⟨14, _⟩ => ⟨S5, .f32⟩
  | .hbm, ⟨15, _⟩ => ⟨S5, .f32⟩
  | .hbm, ⟨16, _⟩ => ⟨S512x1, .f32⟩
  | .hbm, ⟨17, _⟩ => ⟨S1x5, .f32⟩
  | .hbm, ⟨18, _⟩ => ⟨S512x5, .f32⟩
  | .hbm, ⟨19, _⟩ => ⟨S512x5, .f32⟩
  | .hbm, ⟨20, _⟩ => ⟨S512x5, .f32⟩
  | .hbm, ⟨21, _⟩ => ⟨S_, .f32⟩
  | .hbm, ⟨22, _⟩ => ⟨S512x5, .f32⟩
  | .hbm, ⟨23, _⟩ => ⟨S512x5, .f32⟩
  | .hbm, ⟨24, _⟩ => ⟨S512x5, .f32⟩
  | .hbm, ⟨25, _⟩ => ⟨S_, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512x1, .f32⟩
  | .hbm, ⟨31, _⟩ => ⟨S512x5, .f32⟩
  | .hbm, ⟨32, _⟩ => ⟨S512x5, .f32⟩
  | .hbm, ⟨33, _⟩ => ⟨S512x5, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x1, .f32⟩
  | .hbm, ⟨38, _⟩ => ⟨S512x5, .f32⟩
  | .hbm, ⟨39, _⟩ => ⟨S512x5, .f32⟩
  | .hbm, ⟨40, _⟩ => ⟨S512x1, .i32⟩
  | .hbm, ⟨41, _⟩ => ⟨S_, .i32⟩
  | .hbm, ⟨42, _⟩ => ⟨S512x1, .i32⟩
  | .hbm, ⟨43, _⟩ => ⟨S512x1, .i1⟩
  | .hbm, ⟨44, _⟩ => ⟨S_, .i32⟩
  | .hbm, ⟨45, _⟩ => ⟨S512x1, .i32⟩
  | .hbm, ⟨46, _⟩ => ⟨S512x1, .i32⟩
  | .hbm, ⟨47, _⟩ => ⟨S512x1, .i32⟩
  | .hbm, ⟨48, _⟩ => ⟨S512x1x1, .i32⟩
  | .hbm, ⟨49, _⟩ => ⟨S1, .i32⟩
  | .hbm, ⟨50, _⟩ => ⟨S_, .i32⟩
  | .hbm, ⟨51, _⟩ => ⟨S512x1x1, .i32⟩
  | .hbm, ⟨52, _⟩ => ⟨S512x1x1, .i1⟩
  | .hbm, ⟨53, _⟩ => ⟨S1x1x1, .i32⟩
  | .hbm, ⟨54, _⟩ => ⟨S512x1x1, .i32⟩
  | .hbm, ⟨55, _⟩ => ⟨S512x1x1, .i1⟩
  | .hbm, ⟨56, _⟩ => ⟨S512x1x1, .i1⟩
  | .hbm, ⟨57, _⟩ => ⟨S_, .i1⟩
  | .hbm, ⟨58, _⟩ => ⟨S512x1, .i1⟩
  | .hbm, ⟨59, _⟩ => ⟨S512x1, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S512x5, .f32⟩
  | .hbm, ⟨70, _⟩ => ⟨S512x5, .f32⟩
  | .local _ .vmem, ⟨0, _⟩ => ⟨S1x5x64x2048, .f32⟩
  | .local _ .vmem, ⟨1, _⟩ => ⟨S1x5x2048, .f32⟩
  | .local _ .vmem, ⟨2, _⟩ => ⟨S1x32x64x2048, .f32⟩
  | .local _ .vmem, ⟨3, _⟩ => ⟨S1x32x64x2048, .f32⟩
  | .local _ .vmem, ⟨4, _⟩ => ⟨S1x32x2048, .f32⟩
  | .local _ .vmem, ⟨5, _⟩ => ⟨S1x32x2048, .f32⟩
  | _, _ => ⟨S1x5x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v5 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call2_cst : Ref sig .tc := ⟨.hbm, 25, rfl⟩
abbrev main_call2_v0 : Ref sig .tc := ⟨.hbm, 26, rfl⟩
abbrev main_call2_cst_0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_cst_1 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_v15 : Ref sig .tc := ⟨.hbm, 39, rfl⟩
abbrev main_v16 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_c_1 : Ref sig .tc := ⟨.hbm, 49, rfl⟩
abbrev main_call3_c_2 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_3 : Ref sig .tc := ⟨.hbm, 57, rfl⟩
abbrev main_call3_v12 : Ref sig .tc := ⟨.hbm, 58, rfl⟩
abbrev main_call3_v13 : Ref sig .tc := ⟨.hbm, 59, rfl⟩
abbrev main_call3_cst : Ref sig .tc := ⟨.hbm, 60, rfl⟩
abbrev main_call3_v14 : Ref sig .tc := ⟨.hbm, 61, rfl⟩
abbrev main_v17 : Ref sig .tc := ⟨.hbm, 62, rfl⟩
abbrev main_cst_0 : Ref sig .tc := ⟨.hbm, 63, rfl⟩
abbrev main_v18 : Ref sig .tc := ⟨.hbm, 64, rfl⟩
abbrev main_cst_1 : Ref sig .tc := ⟨.hbm, 65, rfl⟩
abbrev main_v19 : Ref sig .tc := ⟨.hbm, 66, rfl⟩
abbrev main_v20 : Ref sig .tc := ⟨.hbm, 67, rfl⟩
abbrev main_cst_2 : Ref sig .tc := ⟨.hbm, 68, rfl⟩
abbrev main_v21 : Ref sig .tc := ⟨.hbm, 69, rfl⟩
abbrev main_v22 : Ref sig .tc := ⟨.hbm, 70, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x5x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x32x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1x5x64x2048_S1x5x64x2048_0_0_0_0 : ∀ a, (![0, 0, 0, 0] : Fin 4 → Nat) a + S1x5x64x2048.size a ≤ S1x5x64x2048.size a
  h_S1x5x64x2048 : 0 < S1x5x64x2048.numel
  shapeCasts_S1x5x64x2048_S5x64x2048 : S1x5x64x2048.ShapeCasts S5x64x2048
  reduces_S5x64x2048_S5x2048 : S5x64x2048.Reduces [1] S5x2048
  inb_S1x5x2048_S1x5x2048_0_0_0 : ∀ a, (![0, 0, 0] : Fin 3 → Nat) a + S1x5x2048.size a ≤ S1x5x2048.size a
  h_S1x5x2048 : 0 < S1x5x2048.numel
  shapeCasts_S1x5x2048_S5x2048 : S1x5x2048.ShapeCasts S5x2048
  shapeCasts_S5x2048_S1x5x2048 : S5x2048.ShapeCasts S1x5x2048
  inb_S1x32x64x2048_S1x32x64x2048_0_0_0_0 : ∀ a, (![0, 0, 0, 0] : Fin 4 → Nat) a + S1x32x64x2048.size a ≤ S1x32x64x2048.size a
  h_S1x32x64x2048 : 0 < S1x32x64x2048.numel
  shapeCasts_S1x32x64x2048_S32x64x2048 : S1x32x64x2048.ShapeCasts S32x64x2048
  reduces_S32x64x2048_S32x2048 : S32x64x2048.Reduces [1] S32x2048
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  shapeCasts_S32x2048_S1x32x2048 : S32x2048.ShapeCasts S1x32x2048
  shapeCasts_S1x512x2048_S512x2048 : S1x512x2048.ShapeCasts S512x2048
  reducesTo_S512x2048_S512_d1 : S512x2048.ReducesTo [1] S512
  h_S_ : 0 < S_.numel
  reducesTo_S5x2048_S5_d1 : S5x2048.ReducesTo [1] S5
  bcast_S512_S512x1_0 : S512.BroadcastsInDim S512x1 (![0] : Fin 1 → Fin S512x1.rank)
  bcast_S5_S1x5_1 : S5.BroadcastsInDim S1x5 (![1] : Fin 1 → Fin S1x5.rank)
  bcast_S512x1_S512x5_0_1 : S512x1.BroadcastsInDim S512x5 (![0, 1] : Fin 2 → Fin S512x5.rank)
  bcast_S1x5_S512x5_0_1 : S1x5.BroadcastsInDim S512x5 (![0, 1] : Fin 2 → Fin S512x5.rank)
  bcast_S_S512x5 : S_.BroadcastsInDim S512x5 (![] : Fin 0 → Fin S512x5.rank)
  reducesTo_S512x5_S512_d1 : S512x5.ReducesTo [1] S512
  bcast_S_S512 : S_.BroadcastsInDim S512 (![] : Fin 0 → Fin S512.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  dot_S512x2048_S5x2048_S512x5_1_1_0_0_n_n_wf : DotDims.WF S512x2048 S5x2048 S512x5 [1] [1] [0] [0] [] []
  gather_S512x5_S512x1x1_S512x1_n_1_0_0_1_2_11_wf : GatherDims.WF S512x5 S512x1x1 S512x1 [] [1] [0] [1] [0] 2 ![1, 1]
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1x5x64x2048.size a ≤ S1x5x64x2048.size a
  hwx0_0 : ∀ i : grid0.Coords, EltTy.bits .f32 = 32 ∨ (Rect.block (s := S1x5x64x2048) S1x5x64x2048.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1x5x2048.size a ≤ S1x5x2048.size a
  hwx0_1 : ∀ i : grid0.Coords, EltTy.bits .f32 = 32 ∨ (Rect.block (s := S1x5x2048) S1x5x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x64x2048.size a ≤ S1x512x64x2048.size a
  hwx1_0 : ∀ i : grid1.Coords, EltTy.bits .f32 = 32 ∨ (Rect.block (s := S1x512x64x2048) S1x32x64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x2048.size a ≤ S1x512x2048.size a
  hwx1_1 : ∀ i : grid1.Coords, EltTy.bits .f32 = 32 ∨ (Rect.block (s := S1x512x2048) S1x32x2048.size (cc1_transform_1 i) (hinb1_1 i)).WholeWords (EltTy.packing .f32)

variable [Facts₀]

def dot_S512x2048_S5x2048_S512x5_1_1_0_0_n_n : DotDims S512x2048 S5x2048 S512x5 where
  lhsContracting := [1]
  rhsContracting := [1]
  lhsNonContracting := [0]
  rhsNonContracting := [0]
  lhsBatch := []
  rhsBatch := []
  wf := dot_S512x2048_S5x2048_S512x5_1_1_0_0_n_n_wf
def gather_S512x5_S512x1x1_S512x1_n_1_0_0_1_2_11 : GatherDims S512x5 S512x1x1 S512x1 where
  offsetDims := []
  collapsedSliceDims := [1]
  operandBatchingDims := [0]
  startIndicesBatchingDims := [0]
  startIndexMap := [1]
  indexVectorDim := 2
  sliceSizes := ![1, 1]
  wf := gather_S512x5_S512x1x1_S512x1_n_1_0_0_1_2_11_wf

abbrev win0_0 : Pipeline.Window sig grid0 :=
  Pipeline.Window.ofSpec (Memref.whole main_arg0) S1x5x64x2048.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x5x2048.size cc0_transform_1 reads0_1 true false 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x32x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x32x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x5x64x2048 : Shape := ⟨4, ![1, 5, 64, 2048]⟩
abbrev S1x512x64x2048 : Shape := ⟨4, ![1, 512, 64, 2048]⟩
abbrev S512 : Shape := ⟨1, ![512]⟩
abbrev S_ : Shape := ⟨0, ![]⟩
abbrev S1x5x2048 : Shape := ⟨3, ![1, 5, 2048]⟩
abbrev S1x512x2048 : Shape := ⟨3, ![1, 512, 2048]⟩
abbrev S1x512x5 : Shape := ⟨3, ![1, 512, 5]⟩
abbrev S1x512 : Shape := ⟨2, ![1, 512]⟩
abbrev S1x5 : Shape := ⟨2, ![1, 5]⟩
abbrev S1x512x1 : Shape := ⟨3, ![1, 512, 1]⟩
abbrev S1x1x5 : Shape := ⟨3, ![1, 1, 5]⟩
abbrev S512x5 : Shape := ⟨2, ![512, 5]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S1x5x64x2048, .f32⟩
  | .hbm, ⟨1, _⟩ => ⟨S1x512x64x2048, .f32⟩
  | .hbm, ⟨2, _⟩ => ⟨S512, .i32⟩
  | .hbm, ⟨3, _⟩ => ⟨S_, .f32⟩
  | .hbm, ⟨4, _⟩ => ⟨S1x5x2048, .f32⟩
  | .hbm, ⟨5, _⟩ => ⟨S_, .f32⟩
  | .hbm, ⟨6, _⟩ => ⟨S1x5x2048, .f32⟩
  | .hbm, ⟨7, _⟩ => ⟨S1x5x2048, .f32⟩
  | .hbm, ⟨8, _⟩ => ⟨S_, .f32⟩
  | .hbm, ⟨9, _⟩ => ⟨S1x512x2048, .f32⟩
  | .hbm, ⟨10, _⟩ => ⟨S_, .f32⟩
  | .hbm, ⟨11, _⟩ => ⟨S1x512x2048, .f32⟩
  | .hbm, ⟨12, _⟩ => ⟨S1x512x2048, .f32⟩
  | .hbm, ⟨13, _⟩ => ⟨S1x512x5, .f32⟩
  | .hbm, ⟨14, _⟩ => ⟨S1x512x2048, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x5x2048, .f32⟩
  | .hbm, ⟨19, _⟩ => ⟨S_, .f32⟩
  | .hbm, ⟨20, _⟩ => ⟨S1x5, .f32⟩
  | .hbm, ⟨21, _⟩ => ⟨S1x5, .f32⟩
  | .hbm, ⟨22, _⟩ => ⟨S1x512x1, .f32⟩
  | .hbm, ⟨23, _⟩ => ⟨S1x1x5, .f32⟩
  | .hbm, ⟨24, _⟩ => ⟨S1x512x5, .f32⟩
  | .hbm, ⟨25, _⟩ => ⟨S1x512x5, .f32⟩
  | .hbm, ⟨26, _⟩ => ⟨S1x512x5, .f32⟩
  | .hbm, ⟨27, _⟩ => ⟨S_, .f32⟩
  | .hbm, ⟨28, _⟩ => ⟨S1x512x5, .f32⟩
  | .hbm, ⟨29, _⟩ => ⟨S1x512x5, .f32⟩
  | .hbm, ⟨30, _⟩ => ⟨S1x512x5, .f32⟩
  | .hbm, ⟨31, _⟩ => ⟨S512x5, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512x1, .f32⟩
  | .hbm, ⟨38, _⟩ => ⟨S512x5, .f32⟩
  | .hbm, ⟨39, _⟩ => ⟨S512x5, .f32⟩
  | .hbm, ⟨40, _⟩ => ⟨S512x5, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S512x1, .f32⟩
  | .hbm, ⟨45, _⟩ => ⟨S512x5, .f32⟩
  | .hbm, ⟨46, _⟩ => ⟨S512x5, .f32⟩
  | .hbm, ⟨47, _⟩ => ⟨S512x1, .i32⟩
  | .hbm, ⟨48, _⟩ => ⟨S_, .i32⟩
  | .hbm, ⟨49, _⟩ => ⟨S512x1, .i32⟩
  | .hbm, ⟨50, _⟩ => ⟨S512x1, .i1⟩
  | .hbm, ⟨51, _⟩ => ⟨S_, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S512x1x1, .i32⟩
  | .hbm, ⟨56, _⟩ => ⟨S1, .i32⟩
  | .hbm, ⟨57, _⟩ => ⟨S_, .i32⟩
  | .hbm, ⟨58, _⟩ => ⟨S512x1x1, .i32⟩
  | .hbm, ⟨59, _⟩ => ⟨S512x1x1, .i1⟩
  | .hbm, ⟨60, _⟩ => ⟨S1x1x1, .i32⟩
  | .hbm, ⟨61, _⟩ => ⟨S512x1x1, .i32⟩
  | .hbm, ⟨62, _⟩ => ⟨S512x1x1, .i1⟩
  | .hbm, ⟨63, _⟩ => ⟨S512x1x1, .i1⟩
  | .hbm, ⟨64, _⟩ => ⟨S_, .i1⟩
  | .hbm, ⟨65, _⟩ => ⟨S512x1, .i1⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S512x5, .f32⟩
  | .hbm, ⟨77, _⟩ => ⟨S512x5, .f32⟩
  | _, _ => ⟨S1x5x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v18 : Ref sig .tc := ⟨.hbm, 46, rfl⟩
abbrev main_v19 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v20 : Ref sig .tc := ⟨.hbm, 69, rfl⟩
abbrev main_cst_4 : Ref sig .tc := ⟨.hbm, 70, rfl⟩
abbrev main_v21 : Ref sig .tc := ⟨.hbm, 71, rfl⟩
abbrev main_cst_5 : Ref sig .tc := ⟨.hbm, 72, rfl⟩
abbrev main_v22 : Ref sig .tc := ⟨.hbm, 73, rfl⟩
abbrev main_v23 : Ref sig .tc := ⟨.hbm, 74, rfl⟩
abbrev main_cst_6 : Ref sig .tc := ⟨.hbm, 75, rfl⟩
abbrev main_v24 : Ref sig .tc := ⟨.hbm, 76, rfl⟩
abbrev main_v25 : Ref sig .tc := ⟨.hbm, 77, rfl⟩

abbrev nD : Nat := 1
abbrev τ : Topo := Topo.v7x

variable {F : FTy → Type} [FloatOps F]

class Facts₀ : Prop where
  reducesTo_S1x5x64x2048_S1x5x2048_d2 : S1x5x64x2048.ReducesTo [2] S1x5x2048
  h_S_ : 0 < S_.numel
  bcast_S_S1x5x2048 : S_.BroadcastsInDim S1x5x2048 (![] : Fin 0 → Fin S1x5x2048.rank)
  reducesTo_S1x512x64x2048_S1x512x2048_d2 : S1x512x64x2048.ReducesTo [2] S1x512x2048
  bcast_S_S1x512x2048 : S_.BroadcastsInDim S1x512x2048 (![] : Fin 0 → Fin S1x512x2048.rank)
  reducesTo_S1x512x2048_S1x512_d2 : S1x512x2048.ReducesTo [2] S1x512
  reducesTo_S1x5x2048_S1x5_d2 : S1x5x2048.ReducesTo [2] S1x5
  bcast_S1x512_S1x512x1_0_1 : S1x512.BroadcastsInDim S1x512x1 (![0, 1] : Fin 2 → Fin S1x512x1.rank)
  bcast_S1x5_S1x1x5_0_2 : S1x5.BroadcastsInDim S1x1x5 (![0, 2] : Fin 2 → Fin S1x1x5.rank)
  bcast_S1x512x1_S1x512x5_0_1_2 : S1x512x1.BroadcastsInDim S1x512x5 (![0, 1, 2] : Fin 3 → Fin S1x512x5.rank)
  bcast_S1x1x5_S1x512x5_0_1_2 : S1x1x5.BroadcastsInDim S1x512x5 (![0, 1, 2] : Fin 3 → Fin S1x512x5.rank)
  bcast_S_S1x512x5 : S_.BroadcastsInDim S1x512x5 (![] : Fin 0 → Fin S1x512x5.rank)
  shapeCasts_S1x512x5_S512x5 : S1x512x5.ShapeCasts S512x5
  reducesTo_S512x5_S512_d1 : S512x5.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x5_0_1 : S512x1.BroadcastsInDim S512x5 (![0, 1] : Fin 2 → Fin S512x5.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  bcast_S_S512x5 : S_.BroadcastsInDim S512x5 (![] : Fin 0 → Fin S512x5.rank)
  dot_S1x512x2048_S1x5x2048_S1x512x5_2_2_1_1_0_0_wf : DotDims.WF S1x512x2048 S1x5x2048 S1x512x5 [2] [2] [1] [1] [0] [0]
  gather_S512x5_S512x1x1_S512x1_n_1_0_0_1_2_11_wf : GatherDims.WF S512x5 S512x1x1 S512x1 [] [1] [0] [1] [0] 2 ![1, 1]

variable [Facts₀]

def dot_S1x512x2048_S1x5x2048_S1x512x5_2_2_1_1_0_0 : DotDims S1x512x2048 S1x5x2048 S1x512x5 where
  lhsContracting := [2]
  rhsContracting := [2]
  lhsNonContracting := [1]
  rhsNonContracting := [1]
  lhsBatch := [0]
  rhsBatch := [0]
  wf := dot_S1x512x2048_S1x5x2048_S1x512x5_2_2_1_1_0_0_wf
def gather_S512x5_S512x1x1_S512x1_n_1_0_0_1_2_11 : GatherDims S512x5 S512x1x1 S512x1 where
  offsetDims := []
  collapsedSliceDims := [1]
  operandBatchingDims := [0]
  startIndicesBatchingDims := [0]
  startIndexMap := [1]
  indexVectorDim := 2
  sliceSizes := ![1, 1]
  wf := gather_S512x5_S512x1x1_S512x1_n_1_0_0_1_2_11_wf

class Facts : Prop extends Facts₀ where

variable [Facts]
-- ==== Proof.Tail.lean ====
/-
  From the cosine-similarity matrix to the two results.  Both programs finish the same way: a row-wise log-softmax
  of the 512×5 similarity matrix `dist`, the entry of each row picked by that row's class index (indices below zero
  wrapped by 5, a row whose index is still outside 0..4 read as NaN), the mean of the 512 picked entries negated —
  the cross-entropy loss — and, as the second result, `1 - dist`.  Nothing here depends on how `dist` was
  computed, so the chain is named once as a function of `dist` and the class indices and is never opened: the
  certificate only needs that the two programs feed it the same matrix.
-/
import proofs.«129884_j12781822673485_1_alg».proof.Proof.Gen.KernelIdeal
import proofs.«129884_j12781822673485_1_alg».proof.Proof.Gen.ReferenceIdeal
import Idealize.ShloMosaic.PureOps.Ideal

set_option maxRecDepth 8192

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The cross-entropy loss of the similarity matrix `dist` against the class indices `ys`. -/
def lossOf (dist : (⟨S512x5, .f32⟩ : BufTy).Contents (Elt F)) (ys : (⟨S512, .i32⟩ : BufTy).Contents (Elt F)) :
    (⟨S_, .f32⟩ : BufTy).Contents (Elt F) :=
  Host.negf (Host.divf (Host.reduceAdd (select (Host.reduce IntOp.andi (andi (cmpi .sge (shapeCast _ (select (cmpi .slt (broadcastInDim S512x1 ![0] bcast_S512_S512x1_0 ys) (broadcastInDim S512x1 ![] bcast_S_S512x1 (constantI S_ 32 0#32))) (addi (broadcastInDim S512x1 ![0] bcast_S512_S512x1_0 ys) (broadcastInDim S512x1 ![] bcast_S_S512x1 (constantI S_ 32 5#32))) (broadcastInDim S512x1 ![0] bcast_S512_S512x1_0 ys)) shapeCasts_S512x1_S512x1x1) (broadcastInDim S512x1x1 ![] bcast_S_S512x1x1 (constantI S_ 32 0#32))) (cmpi .sle (shapeCast _ (select (cmpi .slt (broadcastInDim S512x1 ![0] bcast_S512_S512x1_0 ys) (broadcastInDim S512x1 ![] bcast_S_S512x1 (constantI S_ 32 0#32))) (addi (broadcastInDim S512x1 ![0] bcast_S512_S512x1_0 ys) (broadcastInDim S512x1 ![] bcast_S_S512x1 (constantI S_ 32 5#32))) (broadcastInDim S512x1 ![0] bcast_S512_S512x1_0 ys)) shapeCasts_S512x1_S512x1x1) (broadcastInDim S512x1x1 ![0, 1, 2] bcast_S1x1x1_S512x1x1_0_1_2 (broadcastInDim S1x1x1 ![2] bcast_S1_S1x1x1_2 (constantI S1 32 4#32))))) (constantI S_ 1 1#1) reducesTo_S512x1x1_S512x1_d2 h_S_) (Host.gather gather_S512x5_S512x1x1_S512x1_n_1_0_0_1_2_11 (subf (subf dist (broadcastInDim S512x5 ![0, 1] bcast_S512x1_S512x5_0_1 (broadcastInDim S512x1 ![0] bcast_S512_S512x1_0 (maximumf (broadcastInDim S512 ![] bcast_S_S512 (constant S_ .f32 0xFF800000#32)) (Host.reduce FloatOps.maximumf dist (constant S_ .f32 0xFF800000#32) reducesTo_S512x5_S512_d1 h_S_))))) (broadcastInDim S512x5 ![0, 1] bcast_S512x1_S512x5_0_1 (Host.log (broadcastInDim S512x1 ![0] bcast_S512_S512x1_0 (Host.reduceAdd (Host.exp (subf dist (broadcastInDim S512x5 ![0, 1] bcast_S512x1_S512x5_0_1 (broadcastInDim S512x1 ![0] bcast_S512_S512x1_0 (maximumf (broadcastInDim S512 ![] bcast_S_S512 (constant S_ .f32 0xFF800000#32)) (Host.reduce FloatOps.maximumf dist (constant S_ .f32 0xFF800000#32) reducesTo_S512x5_S512_d1 h_S_)))))) (constant S_ .f32 0x00000000#32) reducesTo_S512x5_S512_d1 h_S_))))) (shapeCast _ (select (cmpi .slt (broadcastInDim S512x1 ![0] bcast_S512_S512x1_0 ys) (broadcastInDim S512x1 ![] bcast_S_S512x1 (constantI S_ 32 0#32))) (addi (broadcastInDim S512x1 ![0] bcast_S512_S512x1_0 ys) (broadcastInDim S512x1 ![] bcast_S_S512x1 (constantI S_ 32 5#32))) (broadcastInDim S512x1 ![0] bcast_S512_S512x1_0 ys)) shapeCasts_S512x1_S512x1x1)) (broadcastInDim S512x1 ![] bcast_S_S512x1 (constant S_ .f32 0x7FC00000#32))) (constant S_ .f32 0x00000000#32) reducesTo_S512x1_S_d0_1 h_S_) (constant S_ .f32 0x44000000#32))

/-- The distance matrix `1 - dist`. -/
def oneMinus (dist : (⟨S512x5, .f32⟩ : BufTy).Contents (Elt F)) : (⟨S512x5, .f32⟩ : BufTy).Contents (Elt F) :=
  subf (broadcastInDim S512x5 ![] bcast_S_S512x5 (constant S_ .f32 0x3F800000#32)) dist

end Cert.KernelIdeal.Hand

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The same loss, spelt over the reference program's own shape records. -/
def lossOf (dist : (⟨S512x5, .f32⟩ : BufTy).Contents (Elt F)) (ys : (⟨S512, .i32⟩ : BufTy).Contents (Elt F)) :
    (⟨S_, .f32⟩ : BufTy).Contents (Elt F) :=
  Host.negf (Host.divf (Host.reduceAdd (select (Host.reduce IntOp.andi (andi (cmpi .sge (shapeCast _ (select (cmpi .slt (broadcastInDim S512x1 ![0] bcast_S512_S512x1_0 ys) (broadcastInDim S512x1 ![] bcast_S_S512x1 (constantI S_ 32 0#32))) (addi (broadcastInDim S512x1 ![0] bcast_S512_S512x1_0 ys) (broadcastInDim S512x1 ![] bcast_S_S512x1 (constantI S_ 32 5#32))) (broadcastInDim S512x1 ![0] bcast_S512_S512x1_0 ys)) shapeCasts_S512x1_S512x1x1) (broadcastInDim S512x1x1 ![] bcast_S_S512x1x1 (constantI S_ 32 0#32))) (cmpi .sle (shapeCast _ (select (cmpi .slt (broadcastInDim S512x1 ![0] bcast_S512_S512x1_0 ys) (broadcastInDim S512x1 ![] bcast_S_S512x1 (constantI S_ 32 0#32))) (addi (broadcastInDim S512x1 ![0] bcast_S512_S512x1_0 ys) (broadcastInDim S512x1 ![] bcast_S_S512x1 (constantI S_ 32 5#32))) (broadcastInDim S512x1 ![0] bcast_S512_S512x1_0 ys)) shapeCasts_S512x1_S512x1x1) (broadcastInDim S512x1x1 ![0, 1, 2] bcast_S1x1x1_S512x1x1_0_1_2 (broadcastInDim S1x1x1 ![2] bcast_S1_S1x1x1_2 (constantI S1 32 4#32))))) (constantI S_ 1 1#1) reducesTo_S512x1x1_S512x1_d2 h_S_) (Host.gather gather_S512x5_S512x1x1_S512x1_n_1_0_0_1_2_11 (subf (subf dist (broadcastInDim S512x5 ![0, 1] bcast_S512x1_S512x5_0_1 (broadcastInDim S512x1 ![0] bcast_S512_S512x1_0 (maximumf (broadcastInDim S512 ![] bcast_S_S512 (constant S_ .f32 0xFF800000#32)) (Host.reduce FloatOps.maximumf dist (constant S_ .f32 0xFF800000#32) reducesTo_S512x5_S512_d1 h_S_))))) (broadcastInDim S512x5 ![0, 1] bcast_S512x1_S512x5_0_1 (Host.log (broadcastInDim S512x1 ![0] bcast_S512_S512x1_0 (Host.reduceAdd (Host.exp (subf dist (broadcastInDim S512x5 ![0, 1] bcast_S512x1_S512x5_0_1 (broadcastInDim S512x1 ![0] bcast_S512_S512x1_0 (maximumf (broadcastInDim S512 ![] bcast_S_S512 (constant S_ .f32 0xFF800000#32)) (Host.reduce FloatOps.maximumf dist (constant S_ .f32 0xFF800000#32) reducesTo_S512x5_S512_d1 h_S_)))))) (constant S_ .f32 0x00000000#32) reducesTo_S512x5_S512_d1 h_S_))))) (shapeCast _ (select (cmpi .slt (broadcastInDim S512x1 ![0] bcast_S512_S512x1_0 ys) (broadcastInDim S512x1 ![] bcast_S_S512x1 (constantI S_ 32 0#32))) (addi (broadcastInDim S512x1 ![0] bcast_S512_S512x1_0 ys) (broadcastInDim S512x1 ![] bcast_S_S512x1 (constantI S_ 32 5#32))) (broadcastInDim S512x1 ![0] bcast_S512_S512x1_0 ys)) shapeCasts_S512x1_S512x1x1)) (broadcastInDim S512x1 ![] bcast_S_S512x1 (constant S_ .f32 0x7FC00000#32))) (constant S_ .f32 0x00000000#32) reducesTo_S512x1_S_d0_1 h_S_) (constant S_ .f32 0x44000000#32))

/-- The same distance matrix, spelt over the reference program's own shape records. -/
def oneMinus (dist : (⟨S512x5, .f32⟩ : BufTy).Contents (Elt F)) : (⟨S512x5, .f32⟩ : BufTy).Contents (Elt F) :=
  subf (broadcastInDim S512x5 ![] bcast_S_S512x5 (constant S_ .f32 0x3F800000#32)) dist

/-- The two spellings are one function: the shape records of the two programs are the same data. -/
theorem lossOf_eq (dist : (⟨S512x5, .f32⟩ : BufTy).Contents (Elt F)) (ys : (⟨S512, .i32⟩ : BufTy).Contents (Elt F)) :
    lossOf dist ys = Cert.KernelIdeal.Hand.lossOf dist ys := rfl

theorem oneMinus_eq (dist : (⟨S512x5, .f32⟩ : BufTy).Contents (Elt F)) :
    oneMinus dist = Cert.KernelIdeal.Hand.oneMinus dist := rfl

end Cert.ReferenceIdeal.Hand

end
-- ==== Proof.CosCore.lean ====
/-
  One entry of the cosine-similarity matrix, as a function of a query row `a` and a support row `b` (both pooled
  feature vectors of length 2048): their inner product divided by the product of their Euclidean norms, the product
  floored at the constant 1e-8.  Each norm is the square root of the sum of squares, the sum started from `+0.0` as
  both programs start it.  Both programs' similarity matrices are this function of their pooled rows.
-/
import Idealize.ShloMosaic.PureOps.Ideal

noncomputable section

namespace Cert.Hand

open Idealize.ShloMosaic

/-- `⟨a, b⟩ / max (‖a‖ · ‖b‖) 1e-8` on the extended reals. -/
def cosEntry (a b : Fin 2048 → EReal) : EReal :=
  Ideal.div (∑ k : Fin 2048, a k * b k)
    (max (Ideal.sqrt (Ideal.ofBits .f32 0x00000000#32 + ∑ k : Fin 2048, a k * a k)
          * Ideal.sqrt (Ideal.ofBits .f32 0x00000000#32 + ∑ k : Fin 2048, b k * b k))
      (Ideal.ofBits .f32 0x322BCC77#32))

end Cert.Hand

end
-- ==== Proof.Similarity.lean ====
/-
  The kernel program's similarity matrix as a function of its two pooled arrays.  After the pooling regions the
  program drops the query array's leading unit axis, contracts the query rows against the support rows over the 2048
  features, takes each row's Euclidean norm, spreads the query norms down the columns and the support norms along the
  rows, multiplies them, floors the product at 1e-8 and divides.  Read at entry `(q, s)` that is `cosEntry` of query
  row `q` and support row `s`.  The pieces that are not pointwise — the contraction, the two spread norms, the spread
  constant — are named and read at an entry one by one.
-/
import proofs.«129884_j12781822673485_1_alg».proof.Proof.Gen.KernelIdeal
import proofs.«129884_j12781822673485_1_alg».proof.Proof.CosCore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo
open Cert.Hand

variable {F : FTy → Type} [FloatOps F]

/-! ## The similarity matrix, in named pieces -/

/-- The query array with its leading unit axis dropped. -/
def qFlat (Q : (⟨S1x512x2048, .f32⟩ : BufTy).Contents (Elt F)) : (⟨S512x2048, .f32⟩ : BufTy).Contents (Elt F) :=
  shapeCast S512x2048 Q shapeCasts_S1x512x2048_S512x2048

/-- Query rows contracted against support rows over the features. -/
def simDot (Q : (⟨S1x512x2048, .f32⟩ : BufTy).Contents (Elt F)) (Sp : (⟨S5x2048, .f32⟩ : BufTy).Contents (Elt F)) :
    (⟨S512x5, .f32⟩ : BufTy).Contents (Elt F) :=
  Host.dotGeneral dot_S512x2048_S5x2048_S512x5_1_1_0_0_n_n none (qFlat Q) Sp

/-- The query rows' norms, spread down the columns. -/
def simNq (Q : (⟨S1x512x2048, .f32⟩ : BufTy).Contents (Elt F)) : (⟨S512x5, .f32⟩ : BufTy).Contents (Elt F) :=
  broadcastInDim S512x5 ![0, 1] bcast_S512x1_S512x5_0_1 (broadcastInDim S512x1 ![0] bcast_S512_S512x1_0
    (Host.sqrt (Host.reduceAdd (mulf (qFlat Q) (qFlat Q)) (constant S_ .f32 0x00000000#32) reducesTo_S512x2048_S512_d1 h_S_)))

/-- The support rows' norms, spread along the rows. -/
def simNs (Sp : (⟨S5x2048, .f32⟩ : BufTy).Contents (Elt F)) : (⟨S512x5, .f32⟩ : BufTy).Contents (Elt F) :=
  broadcastInDim S512x5 ![0, 1] bcast_S1x5_S512x5_0_1 (broadcastInDim S1x5 ![1] bcast_S5_S1x5_1
    (Host.sqrt (Host.reduceAdd (mulf Sp Sp) (constant S_ .f32 0x00000000#32) reducesTo_S5x2048_S5_d1 h_S_)))

/-- The floor 1e-8 at every entry. -/
def simEps : (⟨S512x5, .f32⟩ : BufTy).Contents (Elt F) :=
  broadcastInDim S512x5 ![] bcast_S_S512x5 (constant S_ .f32 0x322BCC77#32)

/-- THE SIMILARITY MATRIX of the pooled query array `Q` and the pooled support rows `Sp`. -/
def simOf (Q : (⟨S1x512x2048, .f32⟩ : BufTy).Contents (Elt F)) (Sp : (⟨S5x2048, .f32⟩ : BufTy).Contents (Elt F)) :
    (⟨S512x5, .f32⟩ : BufTy).Contents (Elt F) :=
  Host.divf (simDot Q Sp) (maximumf (mulf (simNq Q) (simNs Sp)) simEps)

/-! ## Rows -/

/-- Feature `k` of the query row that entry `i` of the matrix reads, in the pooled query array. -/
abbrev qrow (i : S512x5.Idx) (k : Fin 2048) : S1x512x2048.Idx := fun a => match a with
  | ⟨0, _⟩ => ⟨0, Nat.one_pos⟩
  | ⟨1, _⟩ => ⟨(i 0).val, (i 0).isLt⟩
  | ⟨2, _⟩ => ⟨k.val, k.isLt⟩
/-- The same entry with the unit axis dropped. -/
abbrev qrow2 (i : S512x5.Idx) (k : Fin 2048) : S512x2048.Idx := fun a => match a with
  | ⟨0, _⟩ => ⟨(i 0).val, (i 0).isLt⟩
  | ⟨1, _⟩ => ⟨k.val, k.isLt⟩
/-- Feature `k` of the support row that entry `i` of the matrix reads. -/
abbrev srow (i : S512x5.Idx) (k : Fin 2048) : S5x2048.Idx := fun a => match a with
  | ⟨0, _⟩ => ⟨(i 1).val, (i 1).isLt⟩
  | ⟨1, _⟩ => ⟨k.val, k.isLt⟩

/-- Dropping the unit axis reads the query array at the same row and feature. -/
theorem qFlat_apply (Q : (⟨S1x512x2048, .f32⟩ : BufTy).Contents (Elt F)) (i : S512x5.Idx) (k : Fin 2048) :
    qFlat Q (qrow2 i k) = Q (qrow i k) := by
  unfold qFlat
  exact shapeCast_apply Q shapeCasts_S1x512x2048_S512x2048 (qrow2 i k) (qrow i k)
    (by rewrite [Shape.rowMajor_val_three, Shape.rowMajor_val_two]
        show (0 * 512 + (i 0).val) * 2048 + k.val = (i 0).val * 2048 + k.val
        omega)

/-! ## The contraction at an entry -/

theorem lhs_sim_0 (i : S512x5.Idx) (q : dot_S512x2048_S5x2048_S512x5_1_1_0_0_n_n.contr.Idx) :
    (dot_S512x2048_S5x2048_S512x5_1_1_0_0_n_n.lhsIdx i q 0).val = (i 0).val := by
  unfold DotDims.lhsIdx
  rw [dif_neg (show ¬(0 : Fin S512x2048.rank) ∈ dot_S512x2048_S5x2048_S512x5_1_1_0_0_n_n.lhsBatch by decide), dif_pos (show (0 : Fin S512x2048.rank) ∈ dot_S512x2048_S5x2048_S512x5_1_1_0_0_n_n.lhsNonContracting by decide)]
  rfl
theorem lhs_sim_1 (i : S512x5.Idx) (q : dot_S512x2048_S5x2048_S512x5_1_1_0_0_n_n.contr.Idx) :
    (dot_S512x2048_S5x2048_S512x5_1_1_0_0_n_n.lhsIdx i q 1).val = (q ⟨0, by decide⟩).val :=
  dot_S512x2048_S5x2048_S512x5_1_1_0_0_n_n.lhsIdx_val_of_single rfl i q
theorem rhs_sim_0 (i : S512x5.Idx) (q : dot_S512x2048_S5x2048_S512x5_1_1_0_0_n_n.contr.Idx) :
    (dot_S512x2048_S5x2048_S512x5_1_1_0_0_n_n.rhsIdx i q 0).val = (i 1).val := by
  unfold DotDims.rhsIdx
  rw [dif_neg (show ¬(0 : Fin S5x2048.rank) ∈ dot_S512x2048_S5x2048_S512x5_1_1_0_0_n_n.rhsBatch by decide), dif_pos (show (0 : Fin S5x2048.rank) ∈ dot_S512x2048_S5x2048_S512x5_1_1_0_0_n_n.rhsNonContracting by decide)]
  rfl
theorem rhs_sim_1 (i : S512x5.Idx) (q : dot_S512x2048_S5x2048_S512x5_1_1_0_0_n_n.contr.Idx) :
    (dot_S512x2048_S5x2048_S512x5_1_1_0_0_n_n.rhsIdx i q 1).val = (q ⟨0, by decide⟩).val :=
  dot_S512x2048_S5x2048_S512x5_1_1_0_0_n_n.rhsIdx_val_of_single rfl i q

/-- The contraction at entry `i`: the sum over the features of query row times support row. -/
theorem simDot_apply (Q : (⟨S1x512x2048, .f32⟩ : BufTy).Contents (Elt Ideal)) (Sp : (⟨S5x2048, .f32⟩ : BufTy).Contents (Elt Ideal)) (i : S512x5.Idx) :
    simDot (F := Ideal) Q Sp i = ∑ k : Fin 2048, Q (qrow i k) * Sp (srow i k) := by
  unfold simDot
  generalize hA : qFlat (F := Ideal) Q = A
  simp only [Host.dotGeneral]
  rw [Ideal.dotGeneral_apply, ← Equiv.sum_comp (ValueIdx.contrEquiv1 dot_S512x2048_S5x2048_S512x5_1_1_0_0_n_n 2048 rfl rfl).symm]
  refine Finset.sum_congr rfl fun k _ => ?_
  have hk := ValueIdx.contrEquiv1_symm_val dot_S512x2048_S5x2048_S512x5_1_1_0_0_n_n 2048 rfl rfl k
  have el : dot_S512x2048_S5x2048_S512x5_1_1_0_0_n_n.lhsIdx i ((ValueIdx.contrEquiv1 dot_S512x2048_S5x2048_S512x5_1_1_0_0_n_n 2048 rfl rfl).symm k) = qrow2 i k := funext fun a => Fin.ext (by
    match a with
    | ⟨0, _⟩ => exact lhs_sim_0 _ _
    | ⟨1, _⟩ => exact (lhs_sim_1 _ _).trans hk)
  have er : dot_S512x2048_S5x2048_S512x5_1_1_0_0_n_n.rhsIdx i ((ValueIdx.contrEquiv1 dot_S512x2048_S5x2048_S512x5_1_1_0_0_n_n 2048 rfl rfl).symm k) = srow i k := funext fun a => Fin.ext (by
    match a with
    | ⟨0, _⟩ => exact rhs_sim_0 _ _
    | ⟨1, _⟩ => exact (rhs_sim_1 _ _).trans hk)
  rw [el, er, ← hA, qFlat_apply]

/-! ## The spread norms at an entry -/

/-- The query row whose norm entry `i` reads, and the support row. -/
abbrev pickQ (i : S512x5.Idx) : S512.Idx := fun a => match a with
  | ⟨0, _⟩ => ⟨(i 0).val, (i 0).isLt⟩
abbrev pickS (i : S512x5.Idx) : S5.Idx := fun a => match a with
  | ⟨0, _⟩ => ⟨(i 1).val, (i 1).isLt⟩

/-- A [512, 2048] array summed along its rows from an initial value, read at the row entry `i` of the matrix picks. -/
theorem rowSumQ_apply (A : FVec Ideal S512x2048 .f32) (v : FVec Ideal S_ .f32) (i : S512x5.Idx) :
    Host.reduceAdd (F := Ideal) (φ := .f32) A v reducesTo_S512x2048_S512_d1 h_S_ (pickQ i)
      = v (Shape.Idx.first h_S_) + ∑ k : Fin 2048, A (qrow2 i k) := by
  simp only [Host.reduceAdd, Ideal.hostReduceAdd_def]
  rw [Ideal.hostReduceAdd_single reducesTo_S512x2048_S512_d1 (by decide)]
  refine congrArg (_ + ·) (Finset.sum_congr rfl fun k _ => ?_)
  exact congrArg A (funext fun a => Fin.ext (by match a with | ⟨0, _⟩ => rfl | ⟨1, _⟩ => rfl))

/-- A [5, 2048] array summed along its rows from an initial value, read at the row entry `i` of the matrix picks. -/
theorem rowSumS_apply (B : FVec Ideal S5x2048 .f32) (v : FVec Ideal S_ .f32) (i : S512x5.Idx) :
    Host.reduceAdd (F := Ideal) (φ := .f32) B v reducesTo_S5x2048_S5_d1 h_S_ (pickS i)
      = v (Shape.Idx.first h_S_) + ∑ k : Fin 2048, B (srow i k) := by
  simp only [Host.reduceAdd, Ideal.hostReduceAdd_def]
  rw [Ideal.hostReduceAdd_single reducesTo_S5x2048_S5_d1 (by decide)]
  refine congrArg (_ + ·) (Finset.sum_congr rfl fun k _ => ?_)
  exact congrArg B (funext fun a => Fin.ext (by match a with | ⟨0, _⟩ => rfl | ⟨1, _⟩ => rfl))

/-- Where entry `i` reads the [512, 1] column of query norms, and the [1, 5] row of support norms. -/
abbrev colQ (i : S512x5.Idx) : S512x1.Idx := fun a => match a with
  | ⟨0, _⟩ => ⟨(i 0).val, (i 0).isLt⟩
  | ⟨1, _⟩ => ⟨0, Nat.one_pos⟩
abbrev rowS (i : S512x5.Idx) : S1x5.Idx := fun a => match a with
  | ⟨0, _⟩ => ⟨0, Nat.one_pos⟩
  | ⟨1, _⟩ => ⟨(i 1).val, (i 1).isLt⟩

/-- A vector of 512 values spread to [512, 1] and then down 5 columns reads, at `(q, s)`, its value at `q`. -/
theorem spreadQ_apply {α : Type} (y : S512.Idx → α) (i : S512x5.Idx) :
    broadcastInDim S512x5 ![0, 1] bcast_S512x1_S512x5_0_1 (broadcastInDim S512x1 ![0] bcast_S512_S512x1_0 y) i
      = y (pickQ i) := by
  refine (broadcastInDim_apply _ bcast_S512x1_S512x5_0_1 _ i
    (colQ i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])).trans ?_
  exact broadcastInDim_apply _ bcast_S512_S512x1_0 y _ (pickQ i) (fun a => match a with
    | ⟨0, _⟩ => by show (i 0).val = if (512 : Nat) = 1 then 0 else (i 0).val; rw [if_neg (by decide)])

/-- A vector of 5 values spread to [1, 5] and then along 512 rows reads, at `(q, s)`, its value at `s`. -/
theorem spreadS_apply {α : Type} (y : S5.Idx → α) (i : S512x5.Idx) :
    broadcastInDim S512x5 ![0, 1] bcast_S1x5_S512x5_0_1 (broadcastInDim S1x5 ![1] bcast_S5_S1x5_1 y) i
      = y (pickS i) := by
  refine (broadcastInDim_apply _ bcast_S1x5_S512x5_0_1 _ i
    (rowS i) (fun a => match a with
    | ⟨0, _⟩ => by show 0 = if (1 : Nat) = 1 then 0 else (i 0).val; rw [if_pos rfl]
    | ⟨1, _⟩ => by show (i 1).val = if (5 : Nat) = 1 then 0 else (i 1).val; rw [if_neg (by decide)])).trans ?_
  exact broadcastInDim_apply _ bcast_S5_S1x5_1 y _ (pickS i) (fun a => match a with
    | ⟨0, _⟩ => by show (i 1).val = if (5 : Nat) = 1 then 0 else (i 1).val; rw [if_neg (by decide)])

/-- The query norm at entry `i`: the root of the sum of squares of query row `i 0`. -/
theorem simNq_apply (Q : (⟨S1x512x2048, .f32⟩ : BufTy).Contents (Elt Ideal)) (i : S512x5.Idx) :
    simNq (F := Ideal) Q i = Ideal.sqrt (Ideal.ofBits .f32 0x00000000#32 + ∑ k : Fin 2048, Q (qrow i k) * Q (qrow i k)) := by
  unfold simNq
  rw [spreadQ_apply]
  show Ideal.sqrt (Host.reduceAdd (F := Ideal) (φ := .f32) (mulf (qFlat Q) (qFlat Q)) (constant S_ .f32 0x00000000#32) reducesTo_S512x2048_S512_d1 h_S_ (pickQ i)) = _
  rw [rowSumQ_apply]
  refine congrArg Ideal.sqrt (congrArg (Ideal.ofBits .f32 0x00000000#32 + ·) (Finset.sum_congr rfl fun k _ => ?_))
  show qFlat Q (qrow2 i k) * qFlat Q (qrow2 i k) = _
  rw [qFlat_apply]

/-- The support norm at entry `i`: the root of the sum of squares of support row `i 1`. -/
theorem simNs_apply (Sp : (⟨S5x2048, .f32⟩ : BufTy).Contents (Elt Ideal)) (i : S512x5.Idx) :
    simNs (F := Ideal) Sp i = Ideal.sqrt (Ideal.ofBits .f32 0x00000000#32 + ∑ k : Fin 2048, Sp (srow i k) * Sp (srow i k)) := by
  unfold simNs
  rw [spreadS_apply]
  show Ideal.sqrt (Host.reduceAdd (F := Ideal) (φ := .f32) (mulf Sp Sp) (constant S_ .f32 0x00000000#32) reducesTo_S5x2048_S5_d1 h_S_ (pickS i)) = _
  rw [rowSumS_apply]
  rfl

/-- The floor at every entry is the constant's value. -/
theorem simEps_apply (i : S512x5.Idx) : simEps (F := Ideal) i = Ideal.ofBits .f32 0x322BCC77#32 := by
  unfold simEps
  exact broadcastInDim_apply _ bcast_S_S512x5 (constant (F := Ideal) S_ .f32 0x322BCC77#32) i (fun a => a.elim0) (fun a => a.elim0)

/-! ## The matrix at an entry -/

/-- ENTRY `i` of the similarity matrix is `cosEntry` of the query row and the support row it reads. -/
theorem simOf_apply (Q : (⟨S1x512x2048, .f32⟩ : BufTy).Contents (Elt Ideal)) (Sp : (⟨S5x2048, .f32⟩ : BufTy).Contents (Elt Ideal)) (i : S512x5.Idx) :
    simOf (F := Ideal) Q Sp i = cosEntry (fun k => Q (qrow i k)) (fun k => Sp (srow i k)) := by
  show Ideal.div (simDot (F := Ideal) Q Sp i) (max (simNq (F := Ideal) Q i * simNs (F := Ideal) Sp i) (simEps (F := Ideal) i)) = _
  rw [simDot_apply, simNq_apply, simNs_apply, simEps_apply]
  rfl

end Cert.KernelIdeal.Hand

end
-- ==== Proof.PoolBody.lean ====
/-
  The arithmetic of the two pooling kernels.  Each loads a block of shape [1, n, 64, 2048], sums it over its axis of
  extent 64 (the time axis) and multiplies by the constant 0.015625; so the entry `(u, p, d)` it stores is the sum of
  the 64 entries `(0, p, k, d)` of the block times that constant.  The two kernels differ only in `n` (5 rows for
  the support set in one block, 32 rows per block for the query set).
-/
import proofs.«129884_j12781822673485_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-- What pooling kernel 0 stores at entry `(u, p, d)` of its output block: the sum over the 64 rows `k` of the
    loaded block at `(0, p, k, d)`, times the pattern of `1/64`. -/
theorem pay0_apply (x : FVec Ideal S1x5x64x2048 .f32) (u : Fin 1) (p : Fin 5) (d : Fin 2048) :
    k0_pay1 (F := Ideal) x (ix3 u p d) = (∑ k : Fin 64, x (ix4 (0 : Fin 1) p k d)) * Ideal.ofBits .f32 0x3C800000#32 := by
  unfold k0_pay1
  dsimp only
  refine (shapeCast_ab_1ab_apply _ shapeCasts_S5x2048_S1x5x2048 u p d).trans ?_
  show multiReduction .add [1] S5x2048 (shapeCast S5x64x2048 x shapeCasts_S1x5x64x2048_S5x64x2048) 0x00000000#32
      reduces_S5x64x2048_S5x2048 (.inl rfl) rfl (ix2 p d) * Ideal.ofBits .f32 0x3C800000#32 = _
  refine congrArg (· * Ideal.ofBits .f32 0x3C800000#32) ?_
  refine (Ideal.multiReduction_add_single (shapeCast S5x64x2048 x shapeCasts_S1x5x64x2048_S5x64x2048) 0x00000000#32
    reduces_S5x64x2048_S5x2048 (.inl rfl) rfl (ix2 p d)).trans ?_
  refine Finset.sum_congr rfl fun k _ => ?_
  have hk : reduces_S5x64x2048_S5x2048.lift (ix2 p d) k = ix3 p k d :=
    funext fun a => Fin.ext (by match a with | ⟨0, _⟩ => rfl | ⟨1, _⟩ => rfl | ⟨2, _⟩ => rfl)
  rw [hk]
  exact shapeCast_1abc_abc_apply x shapeCasts_S1x5x64x2048_S5x64x2048 p k d

/-- What pooling kernel 1 stores at entry `(u, p, d)` of its output block: the sum over the 64 rows `k` of the
    loaded block at `(0, p, k, d)`, times the pattern of `1/64`. -/
theorem pay1_apply (x : FVec Ideal S1x32x64x2048 .f32) (u : Fin 1) (p : Fin 32) (d : Fin 2048) :
    k1_pay1 (F := Ideal) x (ix3 u p d) = (∑ k : Fin 64, x (ix4 (0 : Fin 1) p k d)) * Ideal.ofBits .f32 0x3C800000#32 := by
  unfold k1_pay1
  dsimp only
  refine (shapeCast_ab_1ab_apply _ shapeCasts_S32x2048_S1x32x2048 u p d).trans ?_
  show multiReduction .add [1] S32x2048 (shapeCast S32x64x2048 x shapeCasts_S1x32x64x2048_S32x64x2048) 0x00000000#32
      reduces_S32x64x2048_S32x2048 (.inl rfl) rfl (ix2 p d) * Ideal.ofBits .f32 0x3C800000#32 = _
  refine congrArg (· * Ideal.ofBits .f32 0x3C800000#32) ?_
  refine (Ideal.multiReduction_add_single (shapeCast S32x64x2048 x shapeCasts_S1x32x64x2048_S32x64x2048) 0x00000000#32
    reduces_S32x64x2048_S32x2048 (.inl rfl) rfl (ix2 p d)).trans ?_
  refine Finset.sum_congr rfl fun k _ => ?_
  have hk : reduces_S32x64x2048_S32x2048.lift (ix2 p d) k = ix3 p k d :=
    funext fun a => Fin.ext (by match a with | ⟨0, _⟩ => rfl | ⟨1, _⟩ => rfl | ⟨2, _⟩ => rfl)
  rw [hk]
  exact shapeCast_1abc_abc_apply x shapeCasts_S1x32x64x2048_S32x64x2048 p k d

end Cert.KernelIdeal.Hand

end
-- ==== Proof.Regions.lean ====
/-
  The two pooling regions, from blocks to arrays.  Region 0 pools the support set's 5 rows in ONE block; region 1 pools
  the query set's 512 rows in 16 blocks of 32.  In both, point `t` loads rows `B·t … B·t + B - 1` of the argument
  (every other axis whole), stores the column sums times 1/64, and writes them back to the same rows of the output.
  Since an entry of the pooled array depends only on its own column, what point `t` writes back is block `t` of ONE
  whole-array function of the argument (`pooledN`), and the blocks tile the output; so the output array ends holding
  that function of the argument as the region finds it.  Stated at a parameter `V`, the buffer contents at the
  region's entry, as the frame's own per-region data are.
-/
import proofs.«129884_j12781822673485_1_alg».proof.Proof.Gen.KernelIdeal.Frame
import proofs.«129884_j12781822673485_1_alg».proof.Proof.PoolBody
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (V : (c : Dev nD) → (b : Ref sig .tc) → Buf (Elt Ideal) ((c : Thread nD τ).loc b))

/-! ## Region 0: 5 rows pooled in blocks of 5 -/

/-- The column of the argument array that entry `i` of the pooled array sums: rows `k` of `(i 0, i 1, k, i 2)`. -/
abbrev col5 (i : S1x5x2048.Idx) (k : Fin 64) : S1x5x64x2048.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩

/-- THE POOLED ARRAY: entry `i` is the sum of its column of `X` over the 64 rows, times the pattern of `1/64`. -/
def pooled5 (X : FVec Ideal S1x5x64x2048 .f32) : FVec Ideal S1x5x2048 .f32 :=
  fun i => (∑ k : Fin 64, X (col5 i k)) * Ideal.ofBits .f32 0x3C800000#32

/-- The kernel's stored value at entry `j` of a block is the pooled value at entry `i` of the array, as soon as the
    block's column at `j` is the array's column at `i`, row by row. -/
theorem pay0_pooled (x : FVec Ideal S1x5x64x2048 .f32) (X : FVec Ideal S1x5x64x2048 .f32) (j : S1x5x2048.Idx) (i : S1x5x2048.Idx)
    (hx : ∀ k : Fin 64, x (col5 j k) = X (col5 i k)) :
    k0_pay1 (F := Ideal) x j = pooled5 X i := by
  obtain ⟨u, p, d, rfl⟩ : ∃ (u : Fin 1) (p : Fin 5) (d : Fin 2048), j = ix3 u p d := ⟨j 0, j 1, j 2, eq_ix3 j⟩
  refine (pay0_apply x u p d).trans ?_
  unfold pooled5
  refine congrArg (· * Ideal.ofBits .f32 0x3C800000#32) (Finset.sum_congr rfl fun k _ => ?_)
  refine Eq.trans (congrArg x (funext fun a => Fin.ext ?_)) (hx k)
  have hu : u.val = 0 := by omega
  match a with
  | ⟨0, _⟩ => exact hu.symm
  | ⟨1, _⟩ => rfl
  | ⟨2, _⟩ => rfl
  | ⟨3, _⟩ => rfl

/-- The printed index maps of region 0, decided once over its grid: both windows move along the row axis with the
    point's number and sit at block 0 on every other axis. -/
theorem idx_facts0 : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = 0 ∧ win0_1.index t (1 : Fin 3) = t.val ∧ win0_1.index t (2 : Fin 3) = 0 :=
  (by decide +kernel : ∀ t : Fin grid0.N, _)

/-- WHAT POINT `t` WRITES BACK is block `t` of the pooled array of the argument as the region finds it. -/
theorem flushed0 (c : Dev nD) (t : Fin cfg0.N) :
    (dat0 V c).flushed 1 t = ((cfg0.win 1).blk t).view.read (Elt Ideal) (pooled5 (V c main_arg0)) := by
  show (cfg0.win 1).cut (grid0.coords t) ((dat0 V c).after 1 t) = _
  rw [after0_1]
  unfold out0_1
  rw [View.canon_unit_zero hz3]
  simp only [View.ld_unit_zero (S := S1x5x64x2048) hz4]
  obtain ⟨e0, e1, e2, e3, f0, f1, f2⟩ := idx_facts0 t
  funext j
  show k0_pay1 (F := Ideal) (iblk0 V c 0 t) j = pooled5 (V c main_arg0) (((cfg0.win 1).blk t).view.emb j)
  refine pay0_pooled (iblk0 V c 0 t) (V c main_arg0) j (((cfg0.win 1).blk t).view.emb j) (fun k => ?_)
  unfold iblk0
  rw [View.read_apply]
  show V c main_arg0 (((cfg0.win 0).blk t).view.emb (col5 j k)) = V c main_arg0 (col5 (((cfg0.win 1).blk t).view.emb j) k)
  refine congrArg (V c main_arg0) (funext fun a => Fin.ext ?_)
  match a with
  | ⟨0, _⟩ => show win0_0.index t (0 : Fin 4) * 1 + 1 * (j 0).val = win0_1.index t (0 : Fin 3) * 1 + 1 * (j 0).val; omega
  | ⟨1, _⟩ => show win0_0.index t (1 : Fin 4) * 5 + 1 * (j 1).val = win0_1.index t (1 : Fin 3) * 5 + 1 * (j 1).val; omega
  | ⟨2, _⟩ => show win0_0.index t (2 : Fin 4) * 64 + 1 * k.val = k.val; omega
  | ⟨3, _⟩ => show win0_0.index t (3 : Fin 4) * 2048 + 1 * (j 2).val = win0_1.index t (2 : Fin 3) * 2048 + 1 * (j 2).val; omega

/-- An index of the output array is in point `t`'s block iff each coordinate is in the block's range on its axis. -/
theorem mem_blk0 (t : Fin cfg0.N) (i : S1x5x2048.Idx) :
    i ∈ ((cfg0.win 1).blk t).view.set ↔ ∀ a : Fin 3, win0_1.index t a * S1x5x2048.size a ≤ (i a).val ∧ (i a).val < win0_1.index t a * S1x5x2048.size a + S1x5x2048.size a := by
  show i ∈ ((View.whole main_v0).slice (win0_1.rect t)).set ↔ _
  rw [View.set_slice_whole, Rect.mem_set_unit]
  exact Iff.rfl

/-- THE ARRAY after region 0: the blocks of 5 rows tile it (row `r` lies in the block of point `r / 5`), so it ends
    holding the pooled array of the argument as the region finds it. -/
theorem final0 (c : Dev nD) : (dat0 V c).arrAt 1 cfg0.N = pooled5 (V c main_arg0) :=
  (dat0 V c).arrAt_eq_of_cover 1 (pooled5 (V c main_arg0)) (fun t _ => flushed0 V c t) fun i => by
    have h0 : (i 0).val < 1 := (i 0).isLt
    have h1 : (i 1).val < 5 := (i 1).isLt
    have h2 : (i 2).val < 2048 := (i 2).isLt
    have ht : (i 1).val / 5 < cfg0.N := by rw [show cfg0.N = 1 from N_0]; omega
    refine ⟨⟨(i 1).val / 5, ht⟩, flush0_1 _, ?_⟩
    rw [mem_blk0]
    obtain ⟨-, -, -, -, f0, f1, f2⟩ := idx_facts0 ⟨(i 1).val / 5, ht⟩
    have f1' : win0_1.index ⟨(i 1).val / 5, ht⟩ (1 : Fin 3) = (i 1).val / 5 := f1
    intro a
    match a with
    | ⟨0, _⟩ => show win0_1.index ⟨(i 1).val / 5, ht⟩ (0 : Fin 3) * 1 ≤ (i 0).val ∧ (i 0).val < win0_1.index ⟨(i 1).val / 5, ht⟩ (0 : Fin 3) * 1 + 1; omega
    | ⟨1, _⟩ => show win0_1.index ⟨(i 1).val / 5, ht⟩ (1 : Fin 3) * 5 ≤ (i 1).val ∧ (i 1).val < win0_1.index ⟨(i 1).val / 5, ht⟩ (1 : Fin 3) * 5 + 5; omega
    | ⟨2, _⟩ => show win0_1.index ⟨(i 1).val / 5, ht⟩ (2 : Fin 3) * 2048 ≤ (i 2).val ∧ (i 2).val < win0_1.index ⟨(i 1).val / 5, ht⟩ (2 : Fin 3) * 2048 + 2048; omega

/-! ## Region 1: 512 rows pooled in blocks of 32 -/

/-- The column of the argument array that entry `i` of the pooled array sums: rows `k` of `(i 0, i 1, k, i 2)`. -/
abbrev col512 (i : S1x512x2048.Idx) (k : Fin 64) : S1x512x64x2048.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩

/-- THE POOLED ARRAY: entry `i` is the sum of its column of `X` over the 64 rows, times the pattern of `1/64`. -/
def pooled512 (X : FVec Ideal S1x512x64x2048 .f32) : FVec Ideal S1x512x2048 .f32 :=
  fun i => (∑ k : Fin 64, X (col512 i k)) * Ideal.ofBits .f32 0x3C800000#32

/-- The same column inside one loaded block of 32 rows. -/
abbrev col32 (j : S1x32x2048.Idx) (k : Fin 64) : S1x32x64x2048.Idx := fun a => match a with
  | ⟨0, _⟩ => ⟨(j 0).val, (j 0).isLt⟩
  | ⟨1, _⟩ => ⟨(j 1).val, (j 1).isLt⟩
  | ⟨2, _⟩ => ⟨k.val, k.isLt⟩
  | ⟨3, _⟩ => ⟨(j 2).val, (j 2).isLt⟩

/-- The kernel's stored value at entry `j` of a block is the pooled value at entry `i` of the array, as soon as the
    block's column at `j` is the array's column at `i`, row by row. -/
theorem pay1_pooled (x : FVec Ideal S1x32x64x2048 .f32) (X : FVec Ideal S1x512x64x2048 .f32) (j : S1x32x2048.Idx) (i : S1x512x2048.Idx)
    (hx : ∀ k : Fin 64, x (col32 j k) = X (col512 i k)) :
    k1_pay1 (F := Ideal) x j = pooled512 X i := by
  obtain ⟨u, p, d, rfl⟩ : ∃ (u : Fin 1) (p : Fin 32) (d : Fin 2048), j = ix3 u p d := ⟨j 0, j 1, j 2, eq_ix3 j⟩
  refine (pay1_apply x u p d).trans ?_
  unfold pooled512
  refine congrArg (· * Ideal.ofBits .f32 0x3C800000#32) (Finset.sum_congr rfl fun k _ => ?_)
  refine Eq.trans (congrArg x (funext fun a => Fin.ext ?_)) (hx k)
  have hu : u.val = 0 := by omega
  match a with
  | ⟨0, _⟩ => exact hu.symm
  | ⟨1, _⟩ => rfl
  | ⟨2, _⟩ => rfl
  | ⟨3, _⟩ => rfl

/-- The printed index maps of region 1, decided once over its grid: both windows move along the row axis with the
    point's number and sit at block 0 on every other axis. -/
theorem idx_facts1 : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 3) = 0 ∧ win1_1.index t (1 : Fin 3) = t.val ∧ win1_1.index t (2 : Fin 3) = 0 :=
  (by decide +kernel : ∀ t : Fin grid1.N, _)

/-- WHAT POINT `t` WRITES BACK is block `t` of the pooled array of the argument as the region finds it. -/
theorem flushed1 (c : Dev nD) (t : Fin cfg1.N) :
    (dat1 V c).flushed 1 t = ((cfg1.win 1).blk t).view.read (Elt Ideal) (pooled512 (V c main_arg1)) := by
  show (cfg1.win 1).cut (grid1.coords t) ((dat1 V c).after 1 t) = _
  rw [after1_1]
  unfold out1_1
  rw [View.canon_unit_zero hz3]
  simp only [View.ld_unit_zero (S := S1x32x64x2048) hz4]
  obtain ⟨e0, e1, e2, e3, f0, f1, f2⟩ := idx_facts1 t
  funext j
  show k1_pay1 (F := Ideal) (iblk1 V c 0 t) j = pooled512 (V c main_arg1) (((cfg1.win 1).blk t).view.emb j)
  refine pay1_pooled (iblk1 V c 0 t) (V c main_arg1) j (((cfg1.win 1).blk t).view.emb j) (fun k => ?_)
  unfold iblk1
  rw [View.read_apply]
  show V c main_arg1 (((cfg1.win 0).blk t).view.emb (col32 j k)) = V c main_arg1 (col512 (((cfg1.win 1).blk t).view.emb j) k)
  refine congrArg (V c main_arg1) (funext fun a => Fin.ext ?_)
  match a with
  | ⟨0, _⟩ => show win1_0.index t (0 : Fin 4) * 1 + 1 * (j 0).val = win1_1.index t (0 : Fin 3) * 1 + 1 * (j 0).val; omega
  | ⟨1, _⟩ => show win1_0.index t (1 : Fin 4) * 32 + 1 * (j 1).val = win1_1.index t (1 : Fin 3) * 32 + 1 * (j 1).val; omega
  | ⟨2, _⟩ => show win1_0.index t (2 : Fin 4) * 64 + 1 * k.val = k.val; omega
  | ⟨3, _⟩ => show win1_0.index t (3 : Fin 4) * 2048 + 1 * (j 2).val = win1_1.index t (2 : Fin 3) * 2048 + 1 * (j 2).val; omega

/-- An index of the output array is in point `t`'s block iff each coordinate is in the block's range on its axis. -/
theorem mem_blk1 (t : Fin cfg1.N) (i : S1x512x2048.Idx) :
    i ∈ ((cfg1.win 1).blk t).view.set ↔ ∀ a : Fin 3, win1_1.index t a * S1x32x2048.size a ≤ (i a).val ∧ (i a).val < win1_1.index t a * S1x32x2048.size a + S1x32x2048.size a := by
  show i ∈ ((View.whole main_v2).slice (win1_1.rect t)).set ↔ _
  rw [View.set_slice_whole, Rect.mem_set_unit]
  exact Iff.rfl

/-- THE ARRAY after region 1: the blocks of 32 rows tile it (row `r` lies in the block of point `r / 32`), so it ends
    holding the pooled array of the argument as the region finds it. -/
theorem final1 (c : Dev nD) : (dat1 V c).arrAt 1 cfg1.N = pooled512 (V c main_arg1) :=
  (dat1 V c).arrAt_eq_of_cover 1 (pooled512 (V c main_arg1)) (fun t _ => flushed1 V c t) fun i => by
    have h0 : (i 0).val < 1 := (i 0).isLt
    have h1 : (i 1).val < 512 := (i 1).isLt
    have h2 : (i 2).val < 2048 := (i 2).isLt
    have ht : (i 1).val / 32 < cfg1.N := by rw [show cfg1.N = 16 from N_1]; omega
    refine ⟨⟨(i 1).val / 32, ht⟩, flush1_1 _, ?_⟩
    rw [mem_blk1]
    obtain ⟨-, -, -, -, f0, f1, f2⟩ := idx_facts1 ⟨(i 1).val / 32, ht⟩
    have f1' : win1_1.index ⟨(i 1).val / 32, ht⟩ (1 : Fin 3) = (i 1).val / 32 := f1
    intro a
    match a with
    | ⟨0, _⟩ => show win1_1.index ⟨(i 1).val / 32, ht⟩ (0 : Fin 3) * 1 ≤ (i 0).val ∧ (i 0).val < win1_1.index ⟨(i 1).val / 32, ht⟩ (0 : Fin 3) * 1 + 1; omega
    | ⟨1, _⟩ => show win1_1.index ⟨(i 1).val / 32, ht⟩ (1 : Fin 3) * 32 ≤ (i 1).val ∧ (i 1).val < win1_1.index ⟨(i 1).val / 32, ht⟩ (1 : Fin 3) * 32 + 32; omega
    | ⟨2, _⟩ => show win1_1.index ⟨(i 1).val / 32, ht⟩ (2 : Fin 3) * 2048 ≤ (i 2).val ∧ (i 2).val < win1_1.index ⟨(i 1).val / 32, ht⟩ (2 : Fin 3) * 2048 + 2048; omega

end Cert.KernelIdeal.Hand

end
-- ==== Proof.KernelHost.lean ====
/-
  The kernel program's two results as functions of its arguments.  The run leaves every buffer at a fold of the
  program's host stretches and pooling regions over the launch memory.  Read back: the eight stretches after the second
  region compute, from the pooled query array and the reshaped pooled support array, the similarity matrix, then the
  shared tail — so the distance buffer ends at `1 - ` the similarity matrix and the loss buffer at the cross-entropy
  loss of it against the class indices.  The pooled query array is what region 1 leaves (its argument untouched since
  the launch), the pooled support array what region 0 leaves, reshaped by the one stretch between the regions, and the
  class indices are as launched.
-/
import proofs.«129884_j12781822673485_1_alg».proof.Proof.Gen.KernelIdeal.Frame
import proofs.«129884_j12781822673485_1_alg».proof.Proof.KernelRun
import proofs.«129884_j12781822673485_1_alg».proof.Proof.Tail
import proofs.«129884_j12781822673485_1_alg».proof.Proof.Similarity
import proofs.«129884_j12781822673485_1_alg».proof.Proof.Regions
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the second region: the similarity matrix, then the tail -/

/-- After the four stretches that follow region 1 (reshape and contraction, the two norms, the spread product, the
    floor and the division) the similarity buffer holds the similarity matrix of what the regions left. -/
theorem sim_at_mid (c : Dev nD) :
    W7 m ρ c (Proc.devRef .tc main_v14)
      = simOf (W3 m ρ c (Proc.devRef .tc main_v2)) (W3 m ρ c (Proc.devRef .tc main_v1)) := by
  show StableHlo.after hostOps2_3 (StableHlo.after hostOps2_2 (StableHlo.after hostOps2_1 (StableHlo.after hostOps2 (W3 m ρ c)))) (Proc.devRef .tc main_v14) = _
  after_results_simp <;> rfl

/-- Those stretches do not write the class indices. -/
theorem idx_at_mid (c : Dev nD) :
    W7 m ρ c (Proc.devRef .tc main_arg2) = W3 m ρ c (Proc.devRef .tc main_arg2) := by
  show StableHlo.after hostOps2_3 (StableHlo.after hostOps2_2 (StableHlo.after hostOps2_1 (StableHlo.after hostOps2 (W3 m ρ c)))) (Proc.devRef .tc main_arg2) = _
  after_results_simp <;> rfl

/-- The last four stretches (log-softmax, the index column, the pick along each row, the mean and its sign; and one
    minus the matrix) are the shared tail of whatever the similarity buffer and the class indices held before them. -/
theorem loss_from_mid (c : Dev nD) :
    W11 m ρ c (Proc.devRef .tc main_v20)
      = lossOf (W7 m ρ c (Proc.devRef .tc main_v14)) (W7 m ρ c (Proc.devRef .tc main_arg2)) := by
  show StableHlo.after hostOps2_7 (StableHlo.after hostOps2_6 (StableHlo.after hostOps2_5 (StableHlo.after hostOps2_4 (W7 m ρ c)))) (Proc.devRef .tc main_v20) = _
  generalize W7 m ρ c = X
  after_results_simp <;> rfl

theorem dist_from_mid (c : Dev nD) :
    W11 m ρ c (Proc.devRef .tc main_v22) = oneMinus (W7 m ρ c (Proc.devRef .tc main_v14)) := by
  show StableHlo.after hostOps2_7 (StableHlo.after hostOps2_6 (StableHlo.after hostOps2_5 (StableHlo.after hostOps2_4 (W7 m ρ c)))) (Proc.devRef .tc main_v22) = _
  generalize W7 m ρ c = X
  after_results_simp <;> rfl

/-- The distance buffer ends at one minus the similarity matrix of what the regions left. -/
theorem dist_at_end (c : Dev nD) :
    W11 m ρ c (Proc.devRef .tc main_v22)
      = oneMinus (simOf (W3 m ρ c (Proc.devRef .tc main_v2)) (W3 m ρ c (Proc.devRef .tc main_v1))) := by
  rw [dist_from_mid, sim_at_mid]

/-- The loss buffer ends at the cross-entropy loss of that similarity matrix against the class indices. -/
theorem loss_at_end (c : Dev nD) :
    W11 m ρ c (Proc.devRef .tc main_v20)
      = lossOf (simOf (W3 m ρ c (Proc.devRef .tc main_v2)) (W3 m ρ c (Proc.devRef .tc main_v1))) (W3 m ρ c (Proc.devRef .tc main_arg2)) := by
  rw [loss_from_mid, sim_at_mid, idx_at_mid]

/-! ## What the regions left -/

/-- Region 1 finds the query argument as launched: neither region 0 nor the stretch between the regions writes it. -/
theorem query_entry (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- The pooled query array after region 1 is the pooled function of the query argument. -/
theorem query_leaf (c : Dev nD) :
    W3 m ρ c (Proc.devRef .tc main_v2) = pooled512 (m ((c : Thread nD τ).loc main_arg1)) :=
  (W3_arr m ρ c 1).trans ((final1 (V2 m ρ) c).trans (congrArg pooled512 (query_entry m ρ c)))

/-- The pooled support rows the later stretches read: region 0's output, its unit axis dropped between the regions. -/
theorem support_leaf (c : Dev nD) :
    W3 m ρ c (Proc.devRef .tc main_v1)
      = shapeCast S5x2048 (pooled5 (m ((c : Thread nD τ).loc main_arg0))) shapeCasts_S1x5x2048_S5x2048 := by
  have e1 : W3 m ρ c (Proc.devRef .tc main_v1) = W2 m ρ c (Proc.devRef .tc main_v1) := W3_of_ne m ρ c main_v1 (by decide)
  have e2 : W2 m ρ c (Proc.devRef .tc main_v1) = shapeCast S5x2048 (W1 m ρ c (Proc.devRef .tc main_v0)) shapeCasts_S1x5x2048_S5x2048 := by
    show StableHlo.after hostOps1 (W1 m ρ c) (Proc.devRef .tc main_v1) = _
    after_results
    rfl
  have e3 : W1 m ρ c (Proc.devRef .tc main_v0) = pooled5 (m ((c : Thread nD τ).loc main_arg0)) :=
    (W1_arr m ρ c 1).trans (final0 (V0 m ρ) c)
  rw [e1, e2, e3]

/-- The class indices are as launched when the tail reads them. -/
theorem index_leaf (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The results -/

/-- THE KERNEL PROGRAM'S SIMILARITY MATRIX of the support argument `x0` and the query argument `x1`. -/
def simK (x0 : FVec Ideal S1x5x64x2048 .f32) (x1 : FVec Ideal S1x512x64x2048 .f32) : (⟨S512x5, .f32⟩ : BufTy).Contents (Elt Ideal) :=
  simOf (pooled512 x1) (shapeCast S5x2048 (pooled5 x0) shapeCasts_S1x5x2048_S5x2048)

theorem loss_result (c : Dev nD) :
    W11 m ρ c (Proc.devRef .tc main_v20)
      = lossOf (simK (m ((c : Thread nD τ).loc main_arg0)) (m ((c : Thread nD τ).loc main_arg1))) (m ((c : Thread nD τ).loc main_arg2)) := by
  rw [loss_at_end, query_leaf, support_leaf, index_leaf]
  rfl

theorem dist_result (c : Dev nD) :
    W11 m ρ c (Proc.devRef .tc main_v22)
      = oneMinus (simK (m ((c : Thread nD τ).loc main_arg0)) (m ((c : Thread nD τ).loc main_arg1))) := by
  rw [dist_at_end, query_leaf, support_leaf]
  rfl

/-- THE RUN, READ: every weakly fair execution ends with the loss and the distance matrix at their functions of the
    arguments, and the arguments as launched. -/
theorem run_value : θ_run defs (onTc (τ := τ) (main (F := Ideal))) ⟨m, fun _ => 0, ρ⟩ (fun r => ∀ c : Dev nD,
      r.2.mem ((c.tc : Thread nD τ).loc main_v20)
        = lossOf (simK (m ((c : Thread nD τ).loc main_arg0)) (m ((c : Thread nD τ).loc main_arg1))) (m ((c : Thread nD τ).loc main_arg2))
      ∧ r.2.mem ((c.tc : Thread nD τ).loc main_v22)
        = oneMinus (simK (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (loss_result m ρ c), (h c).2.1.trans (dist_result m ρ c), (h c).2.2⟩)
    (Cert.KernelIdeal.RunResults.run_results m ρ)

end Cert.KernelIdeal.Hand

end
-- ==== Proof.RefTail.lean ====
/-
  The reference's two results through the shared tail.  Past its similarity matrix (the stage `val_main_v17` of the
  argument arrays) the reference applies exactly the chain named in the tail module, so its loss is `lossOf` of that
  matrix and of the class indices, and its second result `1 - ` that matrix.  Both facts hold by unfolding the stages.
-/
import proofs.«129884_j12781822673485_1_alg».proof.Proof.Gen.ReferenceIdeal.Read
import proofs.«129884_j12781822673485_1_alg».proof.Proof.Tail

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The reference's loss is the shared chain applied to its similarity matrix and the class indices. -/
theorem loss_stage (x0 : (⟨S1x5x64x2048, .f32⟩ : BufTy).Contents (Elt F)) (x1 : (⟨S1x512x64x2048, .f32⟩ : BufTy).Contents (Elt F))
    (x2 : (⟨S512, .i32⟩ : BufTy).Contents (Elt F)) :
    val_main_v23 (F := F) x0 x1 x2 = lossOf (val_main_v17 (F := F) x0 x1) x2 := rfl

/-- The reference's second result is one minus its similarity matrix. -/
theorem dist_stage (x0 : (⟨S1x5x64x2048, .f32⟩ : BufTy).Contents (Elt F)) (x1 : (⟨S1x512x64x2048, .f32⟩ : BufTy).Contents (Elt F)) :
    val_main_v25 (F := F) x0 x1 = oneMinus (val_main_v17 (F := F) x0 x1) := rfl

end Cert.ReferenceIdeal.Hand

end
-- ==== Proof.Consts.lean ====
/-
  The three float constants the pooling step spells, as the extended reals their bit patterns denote: `+0.0` is `0`,
  `64.0` is `64`, and `0.015625` is exactly `1/64` (a power of two, so the pattern denotes the fraction itself).
  With them, the one scalar law that joins the two programs' poolings: a column sum `s` times `1/64` is
  `(0 + s)` divided by `64`, on every extended real — no finiteness is needed, since dividing by a nonzero real
  is multiplying by its inverse also at the infinities.
-/
import Idealize.ShloMosaic.PureOps.Ideal

noncomputable section

namespace Cert.Hand.Consts

open Idealize.ShloMosaic

/-- `+0.0` denotes `0`. -/
theorem ofBits_zero : Ideal.ofBits .f32 0x00000000#32 = 0 := by
  simp [Ideal.ofBits, Ideal.ieee]

/-- `64.0` denotes the real `64`. -/
theorem ofBits_64 : Ideal.ofBits .f32 0x42800000#32 = ((64 : ℝ) : EReal) := by
  simp [Ideal.ofBits, Ideal.ieee, -EReal.coe_mul]; norm_num

/-- `0.015625` denotes the real `1/64`. -/
theorem ofBits_inv64 : Ideal.ofBits .f32 0x3C800000#32 = ((1 / 64 : ℝ) : EReal) := by
  simp [Ideal.ofBits, Ideal.ieee, -EReal.coe_mul]; norm_num

/-- A column sum times `1/64` is the sum, started from `0`, divided by `64`. -/
theorem mean_law (s : EReal) :
    s * Ideal.ofBits .f32 0x3C800000#32 = Ideal.div (Ideal.ofBits .f32 0x00000000#32 + s) (Ideal.ofBits .f32 0x42800000#32) := by
  rw [ofBits_zero, zero_add, ofBits_64, Ideal.div_coe (by norm_num : (64 : ℝ) ≠ 0), ofBits_inv64]

end Cert.Hand.Consts

end
-- ==== Proof.RefSimilarity.lean ====
/-
  The reference's similarity matrix at an entry.  The reference keeps the batch axis of extent 1 through the
  contraction, the norms and the division, and reshapes it away at the end; read at entry `(q, s)` its matrix is the
  same `cosEntry` of row `q` of its pooled query array and row `s` of its pooled support array.  The stages are read
  one operation at a time by the generated read-at-an-index lemmas; written here are only the composed index
  functions (every one lands on `(0, q, k)` or `(0, s, k)`).
-/
import proofs.«129884_j12781822673485_1_alg».proof.Proof.Gen.ReferenceIdeal.Read
import proofs.«129884_j12781822673485_1_alg».proof.Proof.CosCore

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo
open Cert.Hand

/-- Feature `k` of the pooled query row that entry `i` reads. -/
abbrev rq (i : S512x5.Idx) (k : Fin 2048) : S1x512x2048.Idx := fun a => match a with
  | ⟨0, _⟩ => ⟨0, Nat.one_pos⟩
  | ⟨1, _⟩ => ⟨(i 0).val, (i 0).isLt⟩
  | ⟨2, _⟩ => ⟨k.val, k.isLt⟩
/-- Feature `k` of the pooled support row that entry `i` reads. -/
abbrev rs (i : S512x5.Idx) (k : Fin 2048) : S1x5x2048.Idx := fun a => match a with
  | ⟨0, _⟩ => ⟨0, Nat.one_pos⟩
  | ⟨1, _⟩ => ⟨(i 1).val, (i 1).isLt⟩
  | ⟨2, _⟩ => ⟨k.val, k.isLt⟩

/-- ENTRY `i` of the reference's similarity matrix is `cosEntry` of its pooled query row and pooled support row. -/
theorem sim_stage_apply (x0 : (⟨S1x5x64x2048, .f32⟩ : BufTy).Contents (Elt Ideal)) (x1 : (⟨S1x512x64x2048, .f32⟩ : BufTy).Contents (Elt Ideal)) (i : S512x5.Idx) :
    val_main_v17 (F := Ideal) x0 x1 i
      = cosEntry (fun k => val_main_v5 (F := Ideal) x1 (rq i k)) (fun k => val_main_v2 (F := Ideal) x0 (rs i k)) := by
  have h0 : (i 0).val < 512 := (i 0).isLt
  have h1 : (i 1).val < 5 := (i 1).isLt
  have hq : ((i 0).val * 5 + (i 1).val) / 5 % 512 = (i 0).val := by omega
  have hs : ((i 0).val * 5 + (i 1).val) % 5 = (i 1).val := by omega
  have e1 : ∀ k, lidx_main_v6 (idx_main_v17 i) k = rq i k := fun k => funext fun a => Fin.ext (by
    match a with | ⟨0, _⟩ => rfl | ⟨1, _⟩ => exact hq | ⟨2, _⟩ => rfl)
  have e2 : ∀ k, ridx_main_v6 (idx_main_v17 i) k = rs i k := fun k => funext fun a => Fin.ext (by
    match a with | ⟨0, _⟩ => rfl | ⟨1, _⟩ => exact hs | ⟨2, _⟩ => rfl)
  have e3 : ∀ k, idx_main_call0_v1 (idx_main_v9 (idx_main_v11 (idx_main_v17 i))) k = rq i k := fun k => funext fun a => Fin.ext (by
    match a with | ⟨0, _⟩ => rfl | ⟨1, _⟩ => exact hq | ⟨2, _⟩ => rfl)
  have e4 : ∀ k, idx_main_call1_v1 (idx_main_v10 (idx_main_v12 (idx_main_v17 i))) k = rs i k := fun k => funext fun a => Fin.ext (by
    match a with | ⟨0, _⟩ => rfl | ⟨1, _⟩ => exact hs | ⟨2, _⟩ => rfl)
  rw [val_main_v17_apply, val_main_v16_apply, val_main_v6_apply, val_main_v15_apply, val_main_v13_apply, val_main_v14_apply,
    val_main_cst_3_apply, val_main_v11_apply, val_main_v9_apply, val_main_v7_apply, val_main_call0_v1_apply, val_main_call0_cst_apply,
    val_main_v12_apply, val_main_v10_apply, val_main_v8_apply, val_main_call1_v1_apply, val_main_call1_cst_apply]
  unfold cosEntry
  refine congrArg₂ Ideal.div (Finset.sum_congr rfl fun k _ => ?_) (congrArg₂ max (congrArg₂ (· * ·)
    (congrArg Ideal.sqrt (congrArg (Ideal.ofBits .f32 0x00000000#32 + ·) (Finset.sum_congr rfl fun k _ => ?_)))
    (congrArg Ideal.sqrt (congrArg (Ideal.ofBits .f32 0x00000000#32 + ·) (Finset.sum_congr rfl fun k _ => ?_)))) rfl)
  · rw [e1 k, e2 k]
  · rw [val_main_call0_v0_apply, e3 k]; rfl
  · rw [val_main_call1_v0_apply, e4 k]; rfl

end Cert.ReferenceIdeal.Hand

end
-- ==== Proof.Bridge.lean ====
/-
  The two programs compute one similarity matrix.  First the pooling: the reference sums each column over the 64 time
  steps from `+0.0` and divides by 64, the kernel sums the same column and multiplies by 0.015625 = 1/64; on the
  extended reals these agree entry by entry, with no finiteness needed, so the reference's pooled arrays ARE the
  kernel's.  Then the matrix: both are `cosEntry` of pooled query row `q` and pooled support row `s` at entry
  `(q, s)` — the reference reads them through its batch axis of extent 1, the kernel through a reshape that drops it.
-/
import proofs.«129884_j12781822673485_1_alg».proof.Proof.Consts
import proofs.«129884_j12781822673485_1_alg».proof.Proof.Regions
import proofs.«129884_j12781822673485_1_alg».proof.Proof.Similarity
import proofs.«129884_j12781822673485_1_alg».proof.Proof.KernelHost
import proofs.«129884_j12781822673485_1_alg».proof.Proof.RefSimilarity

noncomputable section

namespace Cert.Hand.Bridge

open Cert.KernelIdeal Cert.KernelIdeal.Gen Cert.KernelIdeal.Hand Idealize.ShloMosaic Idealize.ShloMosaic.TcCoe Idealize.SL.Sem Idealize.ShloMosaic.StableHlo
open Cert.Hand

/-- The reference's pooled query array (sum from `+0.0`, divided by 64) is the kernel's (sum times 1/64). -/
theorem pool_query (x1 : FVec Ideal S1x512x64x2048 .f32) :
    Cert.ReferenceIdeal.Read.val_main_v5 (F := Ideal) x1 = pooled512 x1 := by
  funext i
  rw [Cert.ReferenceIdeal.Read.val_main_v5_apply, Cert.ReferenceIdeal.Read.val_main_v3_apply, Cert.ReferenceIdeal.Read.val_main_cst_1_apply,
    Cert.ReferenceIdeal.Read.val_main_v4_apply, Cert.ReferenceIdeal.Read.val_main_cst_2_apply]
  unfold pooled512
  refine Eq.trans ?_ (Consts.mean_law _).symm
  refine congrArg (fun s => Ideal.div (Ideal.ofBits .f32 0x00000000#32 + s) (Ideal.ofBits .f32 0x42800000#32)) (Finset.sum_congr rfl fun k _ => ?_)
  exact congrArg x1 (funext fun a => Fin.ext (by match a with | ⟨0, _⟩ => rfl | ⟨1, _⟩ => rfl | ⟨2, _⟩ => rfl | ⟨3, _⟩ => rfl))

/-- The same for the support set's five rows. -/
theorem pool_support (x0 : FVec Ideal S1x5x64x2048 .f32) :
    Cert.ReferenceIdeal.Read.val_main_v2 (F := Ideal) x0 = pooled5 x0 := by
  funext i
  rw [Cert.ReferenceIdeal.Read.val_main_v2_apply, Cert.ReferenceIdeal.Read.val_main_v0_apply, Cert.ReferenceIdeal.Read.val_main_cst_apply,
    Cert.ReferenceIdeal.Read.val_main_v1_apply, Cert.ReferenceIdeal.Read.val_main_cst_0_apply]
  unfold pooled5
  refine Eq.trans ?_ (Consts.mean_law _).symm
  refine congrArg (fun s => Ideal.div (Ideal.ofBits .f32 0x00000000#32 + s) (Ideal.ofBits .f32 0x42800000#32)) (Finset.sum_congr rfl fun k _ => ?_)
  exact congrArg x0 (funext fun a => Fin.ext (by match a with | ⟨0, _⟩ => rfl | ⟨1, _⟩ => rfl | ⟨2, _⟩ => rfl | ⟨3, _⟩ => rfl))

/-- THE KERNEL PROGRAM'S SIMILARITY MATRIX IS THE REFERENCE'S, as functions of the two arguments. -/
theorem sim_eq (x0 : FVec Ideal S1x5x64x2048 .f32) (x1 : FVec Ideal S1x512x64x2048 .f32) :
    simK x0 x1 = Cert.ReferenceIdeal.Read.val_main_v17 (F := Ideal) x0 x1 := by
  funext i
  unfold simK
  rw [simOf_apply, Cert.ReferenceIdeal.Hand.sim_stage_apply, pool_query, pool_support]
  refine congrArg₂ cosEntry (funext fun k => ?_) (funext fun k => ?_)
  · exact congrArg (pooled512 x1) (funext fun a => Fin.ext (by match a with | ⟨0, _⟩ => rfl | ⟨1, _⟩ => rfl | ⟨2, _⟩ => rfl))
  · exact shapeCast_apply (pooled5 x0) shapeCasts_S1x5x2048_S5x2048 (srow i k) (Cert.ReferenceIdeal.Hand.rs i k)
      (by rewrite [Shape.rowMajor_val_three, Shape.rowMajor_val_two]
          show (0 * 5 + (i 1).val) * 2048 + k.val = (i 1).val * 2048 + k.val
          omega)

end Cert.Hand.Bridge

end
-- ==== Proof.lean ====
/-
  Cosine-similarity few-shot loss: a Pallas mean-pool against `jnp.mean`.

  The kernel program pools the support set (5 rows) and the query set (512 rows) over their 64 time steps in two
  pallas_calls — each sums a column and multiplies by 0.015625 — and then, in plain host operations, forms the 512×5
  cosine-similarity matrix of pooled query rows against pooled support rows (inner product over the product of norms,
  floored at 1e-8), its row-wise log-softmax, the mean negative log-probability of each row's class, and `1 - ` the
  matrix.  The reference does the same with `mean` (sum, divide by 64) and a batch axis of extent 1.

  At the ideal instance the two agree on every input: 0.015625 is exactly 1/64, and a sum times 1/64 is that sum
  divided by 64 on every extended real, so the pooled arrays coincide; the similarity matrices are then one function
  of the pooled rows, entry by entry; and from the matrix on both programs apply one and the same chain, which is
  carried unopened.  No law used needs finiteness, so the precondition is never opened.

  Frames: the two kernel programs' are the generated frame certificates; the reference's is its generated run with the
  results dropped.  The ideal pass rewrote nothing, so `preserves` is `True`.
-/
import proofs.«129884_j12781822673485_1_alg».proof.Defs
import proofs.«129884_j12781822673485_1_alg».proof.Proof.Gen.Kernel
import proofs.«129884_j12781822673485_1_alg».proof.Proof.Gen.Kernel.Skeleton
import proofs.«129884_j12781822673485_1_alg».proof.Proof.Gen.Kernel.Launch
import proofs.«129884_j12781822673485_1_alg».proof.Proof.Gen.Kernel.Points
import proofs.«129884_j12781822673485_1_alg».proof.Proof.Gen.Kernel.Frame
import proofs.«129884_j12781822673485_1_alg».proof.Proof.Gen.KernelIdeal
import proofs.«129884_j12781822673485_1_alg».proof.Proof.Gen.KernelIdeal.Skeleton
import proofs.«129884_j12781822673485_1_alg».proof.Proof.Gen.KernelIdeal.Launch
import proofs.«129884_j12781822673485_1_alg».proof.Proof.Gen.KernelIdeal.Points
import proofs.«129884_j12781822673485_1_alg».proof.Proof.Gen.KernelIdeal.Frame
import proofs.«129884_j12781822673485_1_alg».proof.Proof.Gen.ReferenceIdeal
import proofs.«129884_j12781822673485_1_alg».proof.Proof.Gen.Pre_finite_inputs
import proofs.«129884_j12781822673485_1_alg».proof.Proof.Gen.ReferenceIdeal.Run
import proofs.«129884_j12781822673485_1_alg».proof.Proof.Gen.ReferenceIdeal.Read
import proofs.«129884_j12781822673485_1_alg».proof.Proof.KernelHost
import proofs.«129884_j12781822673485_1_alg».proof.Proof.RefTail
import proofs.«129884_j12781822673485_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the loss of ONE similarity matrix against the class indices, and one minus that matrix:
    the kernel program's results are these functions of its arguments (its run, read); the reference's results are
    the shared tail of its own similarity stage, which is the kernel program's matrix of arguments that agree. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.ReferenceIdeal.Hand.loss_stage, Cert.ReferenceIdeal.Hand.lossOf_eq,
      (hagree c).1, (hagree c).2.1, (hagree c).2.2, ← Cert.Hand.Bridge.sim_eq]
  · rw [Cert.ReferenceIdeal.Read.val_main_v25_eq, Cert.ReferenceIdeal.Hand.dist_stage, Cert.ReferenceIdeal.Hand.oneMinus_eq,
      (hagree c).1, (hagree c).2.1, ← Cert.Hand.Bridge.sim_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
